-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x256x64 : Shape := ⟨4, ![8, 256, 256, 64]⟩
abbrev S_ : Shape := ⟨0, ![]⟩

class Facts : Prop where
  bcast_S_S8x256x256x64 : S_.BroadcastsInDim S8x256x256x64 (![] : Fin 0 → Fin S8x256x256x64.rank)
  reducesTo_S8x256x256x64_S_d0_1_2_3 : S8x256x256x64.ReducesTo [0, 1, 2, 3] S_
  h_S_ : 0 < S_.numel

variable [Facts]

def fn {F : FTy → Type} [FloatOps F] (main_arg0 : FVec F S8x256x256x64 .f32) : IVec S_ 1 :=
  let main_v0 : FVec F S8x256x256x64 .f32 := Host.absf main_arg0
  let main_cst : FVec F S_ .f32 := constant S_ .f32 0x7F800000#32
  let main_v1 : FVec F S8x256x256x64 .f32 := broadcastInDim S8x256x256x64 ![] bcast_S_S8x256x256x64 main_cst
  let main_v2 : IVec S8x256x256x64 1 := cmpf .olt main_v0 main_v1
  let main_c : IVec S_ 1 := constantI S_ 1 1#1
  let main_v3 : IVec S_ 1 := (fun x v => Host.reduce IntOp.andi x v reducesTo_S8x256x256x64_S_d0_1_2_3 h_S_) main_v2 main_c
  main_v3
-- ==== Kernel.lean ====
abbrev S8x256x256x64 : Shape := ⟨4, ![8, 256, 256, 64]⟩
abbrev S64x64 : Shape := ⟨2, ![64, 64]⟩
abbrev S8x512x512x16 : Shape := ⟨4, ![8, 512, 512, 16]⟩
abbrev S1x32x256x64 : Shape := ⟨4, ![1, 32, 256, 64]⟩
abbrev S1x64x512x16 : Shape := ⟨4, ![1, 64, 512, 16]⟩
abbrev S32x256x64 : Shape := ⟨3, ![32, 256, 64]⟩
abbrev S8192x64 : Shape := ⟨2, ![8192, 64]⟩
abbrev S32x256x16 : Shape := ⟨3, ![32, 256, 16]⟩
abbrev S32x256x1x16 : Shape := ⟨4, ![32, 256, 1, 16]⟩
abbrev S32x256x2x16 : Shape := ⟨4, ![32, 256, 2, 16]⟩
abbrev S32x512x16 : Shape := ⟨3, ![32, 512, 16]⟩
abbrev S32x1x512x16 : Shape := ⟨4, ![32, 1, 512, 16]⟩
abbrev S32x2x512x16 : Shape := ⟨4, ![32, 2, 512, 16]⟩
abbrev S64x512x16 : Shape := ⟨3, ![64, 512, 16]⟩

abbrev nBuf : Space → Nat
  | .hbm => 3
  | .vmem => 5
  | .smem => 0
  | _ => 0

abbrev bufTy : (tb : Table) → Fin (tcTables nBuf tb) → BufTy
  | .hbm, ⟨0, _⟩ => ⟨S8x256x256x64, .f32⟩
  | .hbm, ⟨1, _⟩ => ⟨S64x64, .f32⟩
  | .hbm, ⟨2, _⟩ => ⟨S8x512x512x16, .f32⟩
  | .local _ .vmem, ⟨0, _⟩ => ⟨S1x32x256x64, .f32⟩
  | .local _ .vmem, ⟨1, _⟩ => ⟨S1x32x256x64, .f32⟩
  | .local _ .vmem, ⟨2, _⟩ => ⟨S64x64, .f32⟩
  | .local _ .vmem, ⟨3, _⟩ => ⟨S1x64x512x16, .f32⟩
  | .local _ .vmem, ⟨4, _⟩ => ⟨S1x64x512x16, .f32⟩
  | _, _ => ⟨S8x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x256x64_S1x32x256x64_0_0_0_0 : ∀ a, (![0, 0, 0, 0] : Fin 4 → Nat) a + S1x32x256x64.size a ≤ S1x32x256x64.size a
  h_S1x32x256x64 : 0 < S1x32x256x64.numel
  shapeCasts_S1x32x256x64_S32x256x64 : S1x32x256x64.ShapeCasts S32x256x64
  inb_S64x64_S64x64_0_0 : ∀ a, (![0, 0] : Fin 2 → Nat) a + S64x64.size a ≤ S64x64.size a
  h_S64x64 : 0 < S64x64.numel
  shapeCasts_S32x256x64_S8192x64 : S32x256x64.ShapeCasts S8192x64
  bitsLt_bf16_f32 : FTy.bits .bf16 < FTy.bits .f32
  shapeCasts_S8192x64_S32x256x64 : S8192x64.ShapeCasts S32x256x64
  slices_S32x256x64_o0_0_0_S32x256x16 : S32x256x64.Slices ![0, 0, 0] S32x256x16
  slices_S32x256x64_o0_0_16_S32x256x16 : S32x256x64.Slices ![0, 0, 16] S32x256x16
  slices_S32x256x64_o0_0_32_S32x256x16 : S32x256x64.Slices ![0, 0, 32] S32x256x16
  slices_S32x256x64_o0_0_48_S32x256x16 : S32x256x64.Slices ![0, 0, 48] S32x256x16
  shapeCasts_S32x256x16_S32x256x1x16 : S32x256x16.ShapeCasts S32x256x1x16
  concatenates_S32x256x1x16_S32x256x1x16_S32x256x2x16_d2 : Shape.Concatenates [S32x256x1x16, S32x256x1x16] S32x256x2x16 2
  shapeCasts_S32x256x2x16_S32x512x16 : S32x256x2x16.ShapeCasts S32x512x16
  shapeCasts_S32x512x16_S32x1x512x16 : S32x512x16.ShapeCasts S32x1x512x16
  concatenates_S32x1x512x16_S32x1x512x16_S32x2x512x16_d1 : Shape.Concatenates [S32x1x512x16, S32x1x512x16] S32x2x512x16 1
  shapeCasts_S32x2x512x16_S64x512x16 : S32x2x512x16.ShapeCasts S64x512x16
  inb_S1x64x512x16_S1x64x512x16_0_0_0_0 : ∀ a, (![0, 0, 0, 0] : Fin 4 → Nat) a + S1x64x512x16.size a ≤ S1x64x512x16.size a
  h_S1x64x512x16 : 0 < S1x64x512x16.numel
  shapeCasts_S1x64x512x16_S64x512x16 : S1x64x512x16.ShapeCasts S64x512x16
  shapeCasts_S64x512x16_S1x64x512x16 : S64x512x16.ShapeCasts S1x64x512x16
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x64.size a ≤ S8x256x256x64.size a
  hwx0_0 : ∀ i : grid0.Coords, EltTy.bits .f32 = 32 ∨ (Rect.block (s := S8x256x256x64) S1x32x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x512x16.size a ≤ S8x512x512x16.size a
  hwx0_2 : ∀ i : grid0.Coords, EltTy.bits .f32 = 32 ∨ (Rect.block (s := S8x512x512x16) S1x64x512x16.size (cc0_transform_2 i) (hinb0_2 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S1x32x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64x512x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x256x64 : Shape := ⟨4, ![8, 256, 256, 64]⟩
abbrev S8x64x256x256 : Shape := ⟨4, ![8, 64, 256, 256]⟩
abbrev S8x16x4x256x256 : Shape := ⟨5, ![8, 16, 4, 256, 256]⟩
abbrev S8x16x1x256x256 : Shape := ⟨5, ![8, 16, 1, 256, 256]⟩
abbrev S8x16x256x256 : Shape := ⟨4, ![8, 16, 256, 256]⟩
abbrev S8x16x256x256x1 : Shape := ⟨5, ![8, 16, 256, 256, 1]⟩
abbrev S8x16x256x256x2 : Shape := ⟨5, ![8, 16, 256, 256, 2]⟩
abbrev S8x16x256x512 : Shape := ⟨4, ![8, 16, 256, 512]⟩
abbrev S8x16x256x1x512 : Shape := ⟨5, ![8, 16, 256, 1, 512]⟩
abbrev S8x16x256x2x512 : Shape := ⟨5, ![8, 16, 256, 2, 512]⟩
abbrev S8x16x512x512 : Shape := ⟨4, ![8, 16, 512, 512]⟩
abbrev S8x512x512x16 : Shape := ⟨4, ![8, 512, 512, 16]⟩

abbrev nBuf : Space → Nat
  | .hbm => 30
  | .vmem => 0
  | .smem => 0
  | _ => 0

abbrev bufTy : (tb : Table) → Fin (tcTables nBuf tb) → BufTy
  | .hbm, ⟨0, _⟩ => ⟨S8x256x256x64, .f32⟩
  | .hbm, ⟨1, _⟩ => ⟨S8x64x256x256, .f32⟩
  | .hbm, ⟨2, _⟩ => ⟨S8x16x4x256x256, .f32⟩
  | .hbm, ⟨3, _⟩ => ⟨S8x16x1x256x256, .f32⟩
  | .hbm, ⟨4, _⟩ => ⟨S8x16x256x256, .f32⟩
  | .hbm, ⟨5, _⟩ => ⟨S8x16x1x256x256, .f32⟩
  | .hbm, ⟨6, _⟩ => ⟨S8x16x256x256, .f32⟩
  | .hbm, ⟨7, _⟩ => ⟨S8x16x1x256x256, .f32⟩
  | .hbm, ⟨8, _⟩ => ⟨S8x16x256x256, .f32⟩
  | .hbm, ⟨9, _⟩ => ⟨S8x16x1x256x256, .f32⟩
  | .hbm, ⟨10, _⟩ => ⟨S8x16x256x256, .f32⟩
  | .hbm, ⟨11, _⟩ => ⟨S8x16x256x256, .f32⟩
  | .hbm, ⟨12, _⟩ => ⟨S8x16x256x256, .f32⟩
  | .hbm, ⟨13, _⟩ => ⟨S8x16x256x256x1, .f32⟩
  | .hbm, ⟨14, _⟩ => ⟨S8x16x256x256x1, .f32⟩
  | .hbm, ⟨15, _⟩ => ⟨S8x16x256x256x2, .f32⟩
  | .hbm, ⟨16, _⟩ => ⟨S8x16x256x512, .f32⟩
  | .hbm, ⟨17, _⟩ => ⟨S8x16x256x256, .f32⟩
  | .hbm, ⟨18, _⟩ => ⟨S8x16x256x256, .f32⟩
  | .hbm, ⟨19, _⟩ => ⟨S8x16x256x256x1, .f32⟩
  | .hbm, ⟨20, _⟩ => ⟨S8x16x256x256x1, .f32⟩
  | .hbm, ⟨21, _⟩ => ⟨S8x16x256x256x2, .f32⟩
  | .hbm, ⟨22, _⟩ => ⟨S8x16x256x512, .f32⟩
  | .hbm, ⟨23, _⟩ => ⟨S8x16x256x512, .f32⟩
  | .hbm, ⟨24, _⟩ => ⟨S8x16x256x512, .f32⟩
  | .hbm, ⟨25, _⟩ => ⟨S8x16x256x1x512, .f32⟩
  | .hbm, ⟨26, _⟩ => ⟨S8x16x256x1x512, .f32⟩
  | .hbm, ⟨27, _⟩ => ⟨S8x16x256x2x512, .f32⟩
  | .hbm, ⟨28, _⟩ => ⟨S8x16x512x512, .f32⟩
  | .hbm, ⟨29, _⟩ => ⟨S8x512x512x16, .f32⟩
  | _, _ => ⟨S8x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩

abbrev nD : Nat := 1
abbrev τ : Topo := Topo.v7x

variable {F : FTy → Type} [FloatOps F]

class Facts₀ : Prop where
  transposes_S8x256x256x64_S8x64x256x256_0_3_1_2 : S8x256x256x64.Transposes [0, 3, 1, 2] S8x64x256x256
  shapeCasts_S8x64x256x256_S8x16x4x256x256 : S8x64x256x256.ShapeCasts S8x16x4x256x256
  slices_S8x16x4x256x256_S8x16x1x256x256_0_0_0_0_0 : S8x16x4x256x256.Slices ![0, 0, 0, 0, 0] S8x16x1x256x256
  shapeCasts_S8x16x1x256x256_S8x16x256x256 : S8x16x1x256x256.ShapeCasts S8x16x256x256
  slices_S8x16x4x256x256_S8x16x1x256x256_0_0_1_0_0 : S8x16x4x256x256.Slices ![0, 0, 1, 0, 0] S8x16x1x256x256
  slices_S8x16x4x256x256_S8x16x1x256x256_0_0_2_0_0 : S8x16x4x256x256.Slices ![0, 0, 2, 0, 0] S8x16x1x256x256
  slices_S8x16x4x256x256_S8x16x1x256x256_0_0_3_0_0 : S8x16x4x256x256.Slices ![0, 0, 3, 0, 0] S8x16x1x256x256
  bcast_S8x16x256x256_S8x16x256x256x1_0_1_2_3 : S8x16x256x256.BroadcastsInDim S8x16x256x256x1 (![0, 1, 2, 3] : Fin 4 → Fin S8x16x256x256x1.rank)
  concatenates_S8x16x256x256x1_S8x16x256x256x1_S8x16x256x256x2_d4 : Shape.Concatenates [S8x16x256x256x1, S8x16x256x256x1] S8x16x256x256x2 4
  shapeCasts_S8x16x256x256x2_S8x16x256x512 : S8x16x256x256x2.ShapeCasts S8x16x256x512
  bcast_S8x16x256x512_S8x16x256x1x512_0_1_2_4 : S8x16x256x512.BroadcastsInDim S8x16x256x1x512 (![0, 1, 2, 4] : Fin 4 → Fin S8x16x256x1x512.rank)
  concatenates_S8x16x256x1x512_S8x16x256x1x512_S8x16x256x2x512_d3 : Shape.Concatenates [S8x16x256x1x512, S8x16x256x1x512] S8x16x256x2x512 3
  shapeCasts_S8x16x256x2x512_S8x16x512x512 : S8x16x256x2x512.ShapeCasts S8x16x512x512
  transposes_S8x16x512x512_S8x512x512x16_0_2_3_1 : S8x16x512x512.Transposes [0, 2, 3, 1] S8x512x512x16

variable [Facts₀]

class Facts : Prop extends Facts₀ where

variable [Facts]
-- ==== Proof.Spec.lean ====
/-
  What both programs compute, as one function of the input image.

  The image `x` has shape `[8, 256, 256, 64]` (batch, row, column, channel). Its 64 channels are 16 groups of four
  sub-bands `a, b, c, d` = channels `4g, 4g+1, 4g+2, 4g+3`. One step of the inverse Haar transform turns the four
  sub-band values at pixel `(h, w)` of group `g` into the 2×2 output patch at rows `2h, 2h+1` and columns `2w, 2w+1`:

      (a + b) + (c + d)    (a − b) + (c − d)
      (a + b) − (c + d)    (a − b) − (c − d)

  The output has shape `[8, 512, 512, 16]` (batch, row, column, group).
-/
import Idealize.ShloMosaic.PureOps.Ideal
import Idealize.ShloMosaic.Lib.ValueIdx

noncomputable section

namespace Cert.Haar

open Idealize.ShloMosaic Idealize.ShloMosaic.ValueIdx

/-- Entry `(i, j)` (both taken modulo two: `0` is even, anything else odd) of the 2×2 patch made from the four sub-band
    values. -/
def cell (a b c d : EReal) (i j : Nat) : EReal :=
  if i % 2 = 0 then (if j % 2 = 0 then (a + b) + (c + d) else (a - b) + (c - d))
  else (if j % 2 = 0 then (a + b) - (c + d) else (a - b) - (c - d))

/-- Sub-band `k` of group `g` at pixel `(h, w)` of image `n`: channel `4g + k`. -/
def band (x : (⟨4, ![8, 256, 256, 64]⟩ : Shape).Idx → EReal) (n : Fin 8) (h w : Fin 256) (g : Fin 16) (k : Fin 4) : EReal :=
  x (ix4 n h w ⟨4 * g.val + k.val, by omega⟩)

/-- The patch entry at output row `H`, column `W` of group `g` in image `n`. -/
def out (x : (⟨4, ![8, 256, 256, 64]⟩ : Shape).Idx → EReal) (n : Fin 8) (H W : Fin 512) (g : Fin 16) : EReal :=
  cell (band x n ⟨H.val / 2, by omega⟩ ⟨W.val / 2, by omega⟩ g 0) (band x n ⟨H.val / 2, by omega⟩ ⟨W.val / 2, by omega⟩ g 1)
    (band x n ⟨H.val / 2, by omega⟩ ⟨W.val / 2, by omega⟩ g 2) (band x n ⟨H.val / 2, by omega⟩ ⟨W.val / 2, by omega⟩ g 3)
    H.val W.val

/-- The whole output array. -/
def G (x : (⟨4, ![8, 256, 256, 64]⟩ : Shape).Idx → EReal) : (⟨4, ![8, 512, 512, 16]⟩ : Shape).Idx → EReal :=
  fun j => out x (j 0) (j 1) (j 2) (j 3)

theorem G_apply (x : (⟨4, ![8, 256, 256, 64]⟩ : Shape).Idx → EReal) (n : Fin 8) (H W : Fin 512) (g : Fin 16) :
    G x (ix4 n H W g) = out x n H W g := rfl

end Cert.Haar

end
-- ==== Proof.Interleave.lean ====
/-
  Two layout identities the kernel's body uses to weave four sub-images into one.

  Stacking two arrays along a fresh axis of extent two and then merging that axis into the axis before it
  interleaves them: position `2·n + s` of the merged axis holds entry `n` of array `s`.  Both identities are
  read at an index, each through the row-major position of a reshape and the piece a two-piece concatenation
  selects.
-/
import Idealize.ShloMosaic.Lib.ValueIdx
import Idealize.ShloMosaic.Lib.Pipeline.Value

namespace Cert.Haar

open Idealize.ShloMosaic Idealize.ShloMosaic.ValueIdx Idealize.ShloMosaic.Pipeline

variable {α : Type}

/-- Interleaving along the middle (width) axis: `[32,256,16] → [32,256,1,16]` twice, joined on the unit axis to
    `[32,256,2,16]`, merged to `[32,512,16]`. Column `W` reads the first array at `W/2` when `W` is even and the second
    when it is odd. -/
theorem interleave_width (p q : (⟨3, ![32, 256, 16]⟩ : Shape).Idx → α)
    (h1 : (⟨3, ![32, 256, 16]⟩ : Shape).ShapeCasts ⟨4, ![32, 256, 1, 16]⟩)
    (hc : Shape.Concatenates [(⟨4, ![32, 256, 1, 16]⟩ : Shape), ⟨4, ![32, 256, 1, 16]⟩] ⟨4, ![32, 256, 2, 16]⟩ 2)
    (h2 : (⟨4, ![32, 256, 2, 16]⟩ : Shape).ShapeCasts ⟨3, ![32, 512, 16]⟩)
    (h : Fin 32) (W : Fin 512) (g : Fin 16) :
    shapeCast (⟨3, ![32, 512, 16]⟩ : Shape)
        (concatenate (⟨4, ![32, 256, 2, 16]⟩ : Shape) 2
          [⟨(⟨4, ![32, 256, 1, 16]⟩ : Shape), shapeCast _ p h1⟩, ⟨(⟨4, ![32, 256, 1, 16]⟩ : Shape), shapeCast _ q h1⟩] hc) h2 (ix3 h W g)
      = if W.val % 2 = 0 then p (ix3 h ⟨W.val / 2, by omega⟩ g) else q (ix3 h ⟨W.val / 2, by omega⟩ g) := by
  have hw : W.val / 2 < 256 := by omega
  by_cases hW : W.val % 2 = 0
  · rw [if_pos hW]
    refine (shapeCast_apply _ h2 (ix3 h W g) (ix4 h ⟨W.val / 2, hw⟩ (0 : Fin 2) g) ?_).trans ?_
    · rw [Shape.rowMajor_val_four, Shape.rowMajor_val_three]
      show ((h.val * 256 + W.val / 2) * 2 + 0) * 16 + g.val = (h.val * 512 + W.val) * 16 + g.val
      omega
    refine (concatenate_pair_apply_left 2 _ _ hc _ rfl (ix4 h ⟨W.val / 2, hw⟩ (0 : Fin 1) g) ?_).trans ?_
    · intro b
      match b with
      | ⟨0, _⟩ => rfl
      | ⟨1, _⟩ => rfl
      | ⟨2, _⟩ => rfl
      | ⟨3, _⟩ => rfl
    refine shapeCast_apply p h1 _ (ix3 h ⟨W.val / 2, hw⟩ g) ?_
    rw [Shape.rowMajor_val_three, Shape.rowMajor_val_four]
    show (h.val * 256 + W.val / 2) * 16 + g.val = ((h.val * 256 + W.val / 2) * 1 + 0) * 16 + g.val
    omega
  · rw [if_neg hW]
    refine (shapeCast_apply _ h2 (ix3 h W g) (ix4 h ⟨W.val / 2, hw⟩ (1 : Fin 2) g) ?_).trans ?_
    · rw [Shape.rowMajor_val_four, Shape.rowMajor_val_three]
      show ((h.val * 256 + W.val / 2) * 2 + 1) * 16 + g.val = (h.val * 512 + W.val) * 16 + g.val
      omega
    refine (concatenate_pair_apply_right 2 _ _ hc _ rfl rfl (ix4 h ⟨W.val / 2, hw⟩ (0 : Fin 1) g) ?_ rfl).trans ?_
    · intro b
      match b with
      | ⟨0, _⟩ => exact fun _ => rfl
      | ⟨1, _⟩ => exact fun _ => rfl
      | ⟨2, _⟩ => exact fun hne => absurd rfl hne
      | ⟨3, _⟩ => exact fun _ => rfl
    refine shapeCast_apply q h1 _ (ix3 h ⟨W.val / 2, hw⟩ g) ?_
    rw [Shape.rowMajor_val_three, Shape.rowMajor_val_four]
    show (h.val * 256 + W.val / 2) * 16 + g.val = ((h.val * 256 + W.val / 2) * 1 + 0) * 16 + g.val
    omega

/-- Interleaving along the leading (height) axis: `[32,512,16] → [32,1,512,16]` twice, joined on the unit axis to
    `[32,2,512,16]`, merged to `[64,512,16]`. Row `H` reads the first array at `H/2` when `H` is even and the second when
    it is odd. -/
theorem interleave_height (p q : (⟨3, ![32, 512, 16]⟩ : Shape).Idx → α)
    (h1 : (⟨3, ![32, 512, 16]⟩ : Shape).ShapeCasts ⟨4, ![32, 1, 512, 16]⟩)
    (hc : Shape.Concatenates [(⟨4, ![32, 1, 512, 16]⟩ : Shape), ⟨4, ![32, 1, 512, 16]⟩] ⟨4, ![32, 2, 512, 16]⟩ 1)
    (h2 : (⟨4, ![32, 2, 512, 16]⟩ : Shape).ShapeCasts ⟨3, ![64, 512, 16]⟩)
    (H : Fin 64) (W : Fin 512) (g : Fin 16) :
    shapeCast (⟨3, ![64, 512, 16]⟩ : Shape)
        (concatenate (⟨4, ![32, 2, 512, 16]⟩ : Shape) 1
          [⟨(⟨4, ![32, 1, 512, 16]⟩ : Shape), shapeCast _ p h1⟩, ⟨(⟨4, ![32, 1, 512, 16]⟩ : Shape), shapeCast _ q h1⟩] hc) h2 (ix3 H W g)
      = if H.val % 2 = 0 then p (ix3 ⟨H.val / 2, by omega⟩ W g) else q (ix3 ⟨H.val / 2, by omega⟩ W g) := by
  have hh : H.val / 2 < 32 := by omega
  by_cases hH : H.val % 2 = 0
  · rw [if_pos hH]
    refine (shapeCast_apply _ h2 (ix3 H W g) (ix4 ⟨H.val / 2, hh⟩ (0 : Fin 2) W g) ?_).trans ?_
    · rw [Shape.rowMajor_val_four, Shape.rowMajor_val_three]
      show ((H.val / 2 * 2 + 0) * 512 + W.val) * 16 + g.val = (H.val * 512 + W.val) * 16 + g.val
      omega
    refine (concatenate_pair_apply_left 1 _ _ hc _ rfl (ix4 ⟨H.val / 2, hh⟩ (0 : Fin 1) W g) ?_).trans ?_
    · intro b
      match b with
      | ⟨0, _⟩ => rfl
      | ⟨1, _⟩ => rfl
      | ⟨2, _⟩ => rfl
      | ⟨3, _⟩ => rfl
    refine shapeCast_apply p h1 _ (ix3 ⟨H.val / 2, hh⟩ W g) ?_
    rw [Shape.rowMajor_val_three, Shape.rowMajor_val_four]
    show (H.val / 2 * 512 + W.val) * 16 + g.val = ((H.val / 2 * 1 + 0) * 512 + W.val) * 16 + g.val
    omega
  · rw [if_neg hH]
    refine (shapeCast_apply _ h2 (ix3 H W g) (ix4 ⟨H.val / 2, hh⟩ (1 : Fin 2) W g) ?_).trans ?_
    · rw [Shape.rowMajor_val_four, Shape.rowMajor_val_three]
      show ((H.val / 2 * 2 + 1) * 512 + W.val) * 16 + g.val = (H.val * 512 + W.val) * 16 + g.val
      omega
    refine (concatenate_pair_apply_right 1 _ _ hc _ rfl rfl (ix4 ⟨H.val / 2, hh⟩ (0 : Fin 1) W g) ?_ rfl).trans ?_
    · intro b
      match b with
      | ⟨0, _⟩ => exact fun _ => rfl
      | ⟨1, _⟩ => exact fun hne => absurd rfl hne
      | ⟨2, _⟩ => exact fun _ => rfl
      | ⟨3, _⟩ => exact fun _ => rfl
    refine shapeCast_apply q h1 _ (ix3 ⟨H.val / 2, hh⟩ W g) ?_
    rw [Shape.rowMajor_val_three, Shape.rowMajor_val_four]
    show (H.val / 2 * 512 + W.val) * 16 + g.val = ((H.val / 2 * 1 + 0) * 512 + W.val) * 16 + g.val
    omega

end Cert.Haar
-- ==== Proof.KernelPayload.lean ====
/-
  What the kernel's body stores, read at an index of its output block.

  The body multiplies the `[32·256, 64]` matrix of pixels × channels by a `64 × 64` selection matrix `s` whose column
  `16k + g` has its single one in row `4g + k` (`IsSel`): the product regroups the channels so that the four sub-bands
  are the four lane blocks of sixteen. A product by a zero is zero for every extended real and only one term of each
  sum survives, so the regrouped value is one entry of the block, whatever that entry is. The four lane blocks are then
  added and subtracted pairwise and woven into the `[64, 512, 16]` output block by the two interleavings.
-/
import proofs.«159997_j24541443129858_1_alg».proof.Proof.Gen.KernelIdeal.Skeleton
import proofs.«159997_j24541443129858_1_alg».proof.Proof.Spec
import proofs.«159997_j24541443129858_1_alg».proof.Proof.Interleave
import Idealize.ShloMosaic.PureOps.Ideal.Laws
import Idealize.ShloMosaic.Lib.ValueIdx
import Idealize.ShloMosaic.Lib.Pipeline.Value

noncomputable section

namespace Cert.Haar.Kern

open Cert.KernelIdeal Cert.KernelIdeal.Gen
open Idealize.ShloMosaic Idealize.ShloMosaic.ValueIdx Idealize.ShloMosaic.Pipeline

/-- The matrix product's dimension numbers: rows × (contracted) columns times (contracted) rows × columns. -/
abbrev mm : DotDims S8192x64 S64x64 S8192x64 := dot_S8192x64_S64x64_S8192x64_1_0_0_1_n_n

theorem lhs_mm_0 (i : S8192x64.Idx) (q : dot_S8192x64_S64x64_S8192x64_1_0_0_1_n_n.contr.Idx) :
    (dot_S8192x64_S64x64_S8192x64_1_0_0_1_n_n.lhsIdx i q 0).val = (i 0).val := by
  unfold DotDims.lhsIdx
  rw [dif_neg (show ¬(0 : Fin S8192x64.rank) ∈ dot_S8192x64_S64x64_S8192x64_1_0_0_1_n_n.lhsBatch by decide),
    dif_pos (show (0 : Fin S8192x64.rank) ∈ dot_S8192x64_S64x64_S8192x64_1_0_0_1_n_n.lhsNonContracting by decide)]
  rfl
theorem lhs_mm_1 (i : S8192x64.Idx) (q : dot_S8192x64_S64x64_S8192x64_1_0_0_1_n_n.contr.Idx) :
    (dot_S8192x64_S64x64_S8192x64_1_0_0_1_n_n.lhsIdx i q 1).val = (q ⟨0, by decide⟩).val :=
  dot_S8192x64_S64x64_S8192x64_1_0_0_1_n_n.lhsIdx_val_of_single rfl i q
theorem rhs_mm_0 (i : S8192x64.Idx) (q : dot_S8192x64_S64x64_S8192x64_1_0_0_1_n_n.contr.Idx) :
    (dot_S8192x64_S64x64_S8192x64_1_0_0_1_n_n.rhsIdx i q 0).val = (q ⟨0, by decide⟩).val :=
  dot_S8192x64_S64x64_S8192x64_1_0_0_1_n_n.rhsIdx_val_of_single rfl i q
theorem rhs_mm_1 (i : S8192x64.Idx) (q : dot_S8192x64_S64x64_S8192x64_1_0_0_1_n_n.contr.Idx) :
    (dot_S8192x64_S64x64_S8192x64_1_0_0_1_n_n.rhsIdx i q 1).val = (i 1).val := by
  unfold DotDims.rhsIdx
  rw [dif_neg (show ¬(1 : Fin S64x64.rank) ∈ dot_S8192x64_S64x64_S8192x64_1_0_0_1_n_n.rhsBatch by decide),
    dif_pos (show (1 : Fin S64x64.rank) ∈ dot_S8192x64_S64x64_S8192x64_1_0_0_1_n_n.rhsNonContracting by decide)]
  rfl

/-- The product into a zero accumulator, at row `R` and column `n`: the sum over the 64 channels. -/
theorem mm_at {φ₁ φ₂ : FTy} (a : FVec Ideal S8192x64 φ₁) (b : FVec Ideal S64x64 φ₂) (R : Fin 8192) (n : Fin 64) :
    matmul (F := Ideal) dot_S8192x64_S64x64_S8192x64_1_0_0_1_n_n none a b (constant S8192x64 .f32 0x00000000#32) (ix2 R n)
      = ∑ k : Fin 64, a (ix2 R k) * b (ix2 k n) := by
  show FloatOps.matmul _ _ _ _ _ _ = _
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 R n) ((ValueIdx.contrEquiv1 dot_S8192x64_S64x64_S8192x64_1_0_0_1_n_n 64 rfl rfl).symm k) = ix2 R k :=
    funext fun a => Fin.ext (by
      match a with
      | ⟨0, _⟩ => exact lhs_mm_0 _ _
      | ⟨1, _⟩ => exact (lhs_mm_1 _ _).trans hk)
  have er : dot_S8192x64_S64x64_S8192x64_1_0_0_1_n_n.rhsIdx (ix2 R n) ((ValueIdx.contrEquiv1 dot_S8192x64_S64x64_S8192x64_1_0_0_1_n_n 64 rfl rfl).symm k) = ix2 k n :=
    funext fun a => Fin.ext (by
      match a with
      | ⟨0, _⟩ => exact (rhs_mm_0 _ _).trans hk
      | ⟨1, _⟩ => exact rhs_mm_1 _ _)
  rw [el, er]

/-- A selection matrix: entry `(k, n)` is one when `n = 16·(k mod 4) + k div 4` and zero otherwise. -/
def IsSel (s : S64x64.Idx → EReal) : Prop :=
  ∀ k n : Fin 64, s (ix2 k n) = if n.val = 16 * (k.val % 4) + k.val / 4 then 1 else 0

/-- Selecting: the sum against column `n` of a selection matrix is the one entry `4·(n mod 16) + n div 16`. -/
theorem sum_sel (s : S64x64.Idx → EReal) (hs : IsSel s) (f : Fin 64 → EReal) (n : Fin 64) :
    ∑ k : Fin 64, f k * s (ix2 k n) = f ⟨4 * (n.val % 16) + n.val / 16, by omega⟩ := by
  rw [Finset.sum_eq_single (⟨4 * (n.val % 16) + n.val / 16, by omega⟩ : Fin 64)]
  · rw [hs, if_pos (by show n.val = 16 * ((4 * (n.val % 16) + n.val / 16) % 4) + (4 * (n.val % 16) + n.val / 16) / 4; omega), mul_one]
  · intro k _ hk
    have hk' : k.val ≠ 4 * (n.val % 16) + n.val / 16 := fun h => hk (Fin.ext h)
    rw [hs, if_neg (by omega), mul_zero]
  · intro h; exact absurd (Finset.mem_univ _) h

/-- The regrouped block `r`: pixel `(h, w)`, lane `n` holds channel `4·(n mod 16) + n div 16` of the input block. -/
theorem regroup_at (x0 : Vec Ideal S1x32x256x64 .f32) (s : Vec Ideal S64x64 .f32) (hs : IsSel s)
    (hA : S1x32x256x64.ShapeCasts S32x256x64) (hB : S32x256x64.ShapeCasts S8192x64) (hC : S8192x64.ShapeCasts S32x256x64)
    (hlt : FTy.bf16.bits < FTy.f32.bits) (h : Fin 32) (w : Fin 256) (n : Fin 64) :
    shapeCast S32x256x64 (matmul (F := Ideal) dot_S8192x64_S64x64_S8192x64_1_0_0_1_n_n none
        (truncf .bf16 (shapeCast S8192x64 (shapeCast S32x256x64 x0 hA) hB) hlt) (truncf .bf16 s hlt)
        (constant S8192x64 .f32 0x00000000#32)) hC (ix3 h w n)
      = x0 (ix4 (0 : Fin 1) h w ⟨4 * (n.val % 16) + n.val / 16, by omega⟩) := by
  have hR : h.val * 256 + w.val < 8192 := by omega
  refine (shapeCast_apply _ hC (ix3 h w n) (ix2 ⟨h.val * 256 + w.val, hR⟩ n) ?_).trans ?_
  · rw [Shape.rowMajor_val_two, Shape.rowMajor_val_three]
    show (h.val * 256 + w.val) * 64 + n.val = (h.val * 256 + w.val) * 64 + n.val
    rfl
  rw [mm_at]
  have hl : ∀ k : Fin 64, (truncf .bf16 (shapeCast S8192x64 (shapeCast S32x256x64 x0 hA) hB) hlt : FVec Ideal S8192x64 .bf16) (ix2 ⟨h.val * 256 + w.val, hR⟩ k)
      = x0 (ix4 (0 : Fin 1) h w k) := by
    intro k
    rw [truncf_apply]
    refine (shapeCast_apply _ hB (ix2 ⟨h.val * 256 + w.val, hR⟩ k) (ix3 h w k) ?_).trans ?_
    · rw [Shape.rowMajor_val_three, Shape.rowMajor_val_two]
      show (h.val * 256 + w.val) * 64 + k.val = (h.val * 256 + w.val) * 64 + k.val
      rfl
    refine shapeCast_apply x0 hA (ix3 h w k) (ix4 (0 : Fin 1) h w k) ?_
    rw [Shape.rowMajor_val_four, Shape.rowMajor_val_three]
    show ((0 * 32 + h.val) * 256 + w.val) * 64 + k.val = (h.val * 256 + w.val) * 64 + k.val
    omega
  have hr : ∀ k : Fin 64, (truncf .bf16 s hlt : FVec Ideal S64x64 .bf16) (ix2 k n) = s (ix2 k n) := fun k => truncf_apply _ _ _
  rw [Finset.sum_congr rfl fun k _ => by rw [hl k, hr k]]
  exact sum_sel s hs (fun k => x0 (ix4 (0 : Fin 1) h w k)) n

/-- Lane block `o … o+15` of a `[32,256,64]` array. -/
theorem lanes_at {α : Type} (r : S32x256x64.Idx → α) (o : Nat) (ho : o + 16 ≤ 64) (hs : S32x256x64.Slices ![0, 0, o] S32x256x16)
    (h : Fin 32) (w : Fin 256) (g : Fin 16) :
    extractStridedSlice S32x256x16 ![0, 0, o] r hs (ix3 h w g) = r (ix3 h w ⟨o + g.val, by omega⟩) := by
  refine extractStridedSlice_apply _ r hs (ix3 h w g) _ ?_
  intro a
  match a with
  | ⟨0, _⟩ => show h.val = 0 + h.val; omega
  | ⟨1, _⟩ => show w.val = 0 + w.val; omega
  | ⟨2, _⟩ => rfl

end Cert.Haar.Kern

end
-- ==== Proof.KernelCell.lean ====
/-
  The stored block as the 2×2 patch formula.

  With the selection matrix in place, lane block `k` (lanes `16k … 16k+15`) of the regrouped block holds sub-band `k`:
  lane `16k + g` is channel `4g + k`. The body adds and subtracts the four lane blocks pairwise and interleaves the four
  results along the columns and then the rows, so entry `(r, q, g)` of the stored block is patch entry
  `(r mod 2, q mod 2)` of the four sub-band values of group `g` at pixel `(r/2, q/2)` of the input block.
-/
import proofs.«159997_j24541443129858_1_alg».proof.Proof.KernelPayload

noncomputable section

namespace Cert.Haar.Kern

open Cert.KernelIdeal Cert.KernelIdeal.Gen
open Idealize.ShloMosaic Idealize.ShloMosaic.ValueIdx Idealize.ShloMosaic.Pipeline

/-- Sub-band `k` of group `g` at pixel `(h, w)` of the input block: channel `4g + k`. -/
def blockBand (x0 : S1x32x256x64.Idx → EReal) (h : Fin 32) (w : Fin 256) (g : Fin 16) (k : Fin 4) : EReal :=
  x0 (ix4 (0 : Fin 1) h w ⟨4 * g.val + k.val, by omega⟩)

/-- Lane block `k` of the regrouped block is sub-band `k`. -/
theorem laneBlock_at (x0 : Vec Ideal S1x32x256x64 .f32) (s : Vec Ideal S64x64 .f32) (hs : IsSel s) (o : Nat) (k : Fin 4)
    (ho : o = 16 * k.val) (hsl : S32x256x64.Slices ![0, 0, o] S32x256x16)
    (hA : S1x32x256x64.ShapeCasts S32x256x64) (hB : S32x256x64.ShapeCasts S8192x64) (hC : S8192x64.ShapeCasts S32x256x64)
    (hlt : FTy.bf16.bits < FTy.f32.bits) (h : Fin 32) (w : Fin 256) (g : Fin 16) :
    extractStridedSlice S32x256x16 ![0, 0, o]
        (shapeCast S32x256x64 (matmul (F := Ideal) dot_S8192x64_S64x64_S8192x64_1_0_0_1_n_n none
          (truncf .bf16 (shapeCast S8192x64 (shapeCast S32x256x64 x0 hA) hB) hlt) (truncf .bf16 s hlt)
          (constant S8192x64 .f32 0x00000000#32)) hC) hsl (ix3 h w g)
      = blockBand x0 h w g k := by
  have hk : k.val < 4 := k.isLt
  refine ((lanes_at _ o (by omega) hsl h w g).trans (regroup_at x0 s hs hA hB hC hlt h w _)).trans ?_
  unfold blockBand
  refine congrArg x0 (congrArg (ix4 (0 : Fin 1) h w) (Fin.ext ?_))
  show 4 * ((o + g.val) % 16) + (o + g.val) / 16 = 4 * g.val + k.val
  omega

/-- Entry `(r, q, g)` of the block the body stores. -/
theorem pay_at (x0 : Vec Ideal S1x32x256x64 .f32) (s : Vec Ideal S64x64 .f32) (hs : IsSel s) (r : Fin 64) (q : Fin 512) (g : Fin 16) :
    k0_pay1 (F := Ideal) x0 s (ix4 (0 : Fin 1) r q g)
      = Cert.Haar.cell (blockBand x0 ⟨r.val / 2, by omega⟩ ⟨q.val / 2, by omega⟩ g 0) (blockBand x0 ⟨r.val / 2, by omega⟩ ⟨q.val / 2, by omega⟩ g 1)
          (blockBand x0 ⟨r.val / 2, by omega⟩ ⟨q.val / 2, by omega⟩ g 2) (blockBand x0 ⟨r.val / 2, by omega⟩ ⟨q.val / 2, by omega⟩ g 3) r.val q.val := by
  unfold k0_pay1
  refine (shapeCast_apply _ _ (ix4 (0 : Fin 1) r q g) (ix3 r q g) ?_).trans ?_
  · rw [Shape.rowMajor_val_three, Shape.rowMajor_val_four]
    show (r.val * 512 + q.val) * 16 + g.val = ((0 * 64 + r.val) * 512 + q.val) * 16 + g.val
    omega
  refine (interleave_height _ _ _ _ _ r q g).trans ?_
  rw [interleave_width, interleave_width]
  simp only [addf_apply, subf_apply, laneBlock_at x0 s hs 0 0 rfl, laneBlock_at x0 s hs 16 1 rfl,
    laneBlock_at x0 s hs 32 2 rfl, laneBlock_at x0 s hs 48 3 rfl]
  unfold Cert.Haar.cell
  split_ifs <;> rfl

end Cert.Haar.Kern

end
-- ==== Proof.KernelFinal.lean ====
/-
  The kernel's output array is `G` of its input.

  The grid has 8 × 8 points; point `(n, p)` reads rows `32p … 32p+31` of image `n` and writes rows `64p … 64p+63` of
  output image `n`, all columns and groups. The second operand is the constant `64 × 64` table, which is a selection
  matrix (checked entry by entry) and is read whole at every point. So what a point writes back is its block of `G`:
  output row `64p + r` comes from input row `32p + r/2`, and the parity of `64p + r` is that of `r`. The 64 output
  blocks tile the output array, so the array ends equal to `G` of the input.
-/
import proofs.«159997_j24541443129858_1_alg».proof.Proof.Gen.KernelIdeal.Value
import proofs.«159997_j24541443129858_1_alg».proof.Proof.KernelCell
import Idealize.ShloMosaic.Lib.StableHlo.Run
import Idealize.ShloMosaic.Lib.IdealHost

set_option maxRecDepth 16384

noncomputable section

namespace Cert.Haar.Kern

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-! ## The constant table is a selection matrix -/

/-- Entry `64k + n` of the printed table is the word of `1.0` exactly when `n = 16·(k mod 4) + k div 4`, else the zero
    word: all 4096 entries, evaluated. -/
theorem table_words : ∀ k n : Fin 64, lit0 ⟨64 * k.val + n.val, by omega⟩
    = if n.val = 16 * (k.val % 4) + k.val / 4 then 0x3F800000#32 else 0x00000000#32 := by
  decide +kernel

/-- The table's array when the region is entered: the host constant, entry by entry. -/
theorem table_eq (c : Dev nD) :
    (V m c main_cst : S64x64.Idx → EReal) = fun i => Ideal.ofBits .f32 (lit0 (S64x64.rowMajor i)) := by
  dsimp only [Gen.V, Gen.hostOps0]
  after_results
  rfl

theorem table_sel (c : Dev nD) : IsSel (V m c main_cst) := by
  intro k n
  rw [table_eq]
  have hlt : 64 * k.val + n.val < 4096 := by omega
  have e : S64x64.rowMajor (ix2 k n) = (⟨64 * k.val + n.val, hlt⟩ : Fin 4096) :=
    Fin.ext (by rw [Shape.rowMajor_val_two]; show k.val * 64 + n.val = 64 * k.val + n.val; omega)
  show Ideal.ofBits .f32 (lit0 (S64x64.rowMajor (ix2 k n))) = _
  rw [e, table_words]
  by_cases h : n.val = 16 * (k.val % 4) + k.val / 4
  · rw [if_pos h, if_pos h, Ideal.ofBits_one_f32]
  · rw [if_neg h, if_neg h, Ideal.ofBits_zero_f32]

/-! ## The index maps, decided over the 64 grid points -/

theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_1.index t (0 : Fin 2) = 0 ∧ win0_1.index t (1 : Fin 2) = 0
    ∧ win0_2.index t (0 : Fin 4) ≤ 7 ∧ win0_2.index t (1 : Fin 4) ≤ 7 :=
  (by decide +kernel : ∀ t : Fin grid0.N, _)

/-- Every pair (image, row block) is some point's. -/
theorem idx_onto : ∀ (q0 q1 : Fin 8), ∃ t : Fin cfg0.N, win0_2.index t = ![q0.val, q1.val, 0, 0] :=
  (by decide +kernel : ∀ (q0 q1 : Fin 8), ∃ t : Fin grid0.N, win0_2.index t = ![q0.val, q1.val, 0, 0])

/-! ## What a point writes back -/

/-- The table's block at any point is the whole table. -/
theorem table_block_sel (c : Dev nD) (t : Fin cfg0.N) : IsSel (iblk m c 1 t) := by
  intro k n
  obtain ⟨-, -, -, -, -, -, e0, e1, -, -⟩ := idx_facts t
  have he : ((cfg0.win 1).blk t).view.emb (ix2 k n) = ix2 k n := by
    funext a; apply Fin.ext
    match a with
    | ⟨0, _⟩ => show win0_1.index t (0 : Fin 2) * 64 + 1 * k.val = k.val; omega
    | ⟨1, _⟩ => show win0_1.index t (1 : Fin 2) * 64 + 1 * n.val = n.val; omega
  show V m c main_cst (((cfg0.win 1).blk t).view.emb (ix2 k n)) = _
  rw [he]
  exact table_sel m c k n

/-- The 2×2 patch entry depends on the row and column through their parities only. -/
theorem cell_parity (a b c d : EReal) (i i' j j' : Nat) (hi : i % 2 = i' % 2) (hj : j % 2 = j' % 2) :
    Cert.Haar.cell a b c d i j = Cert.Haar.cell a b c d i' j' := by
  unfold Cert.Haar.cell; rw [hi, hj]

/-- Point `t` writes back block `t` of `G` of the input array. -/
theorem flushed_eq (c : Dev nD) (t : Fin cfg0.N) :
    (dats m 0 c).flushed 2 t = ((cfg0.win 2).blk t).view.read (Elt Ideal) (Cert.Haar.G (V m c main_arg0)) := by
  rw [Cert.KernelIdeal.Value.flushed2]
  unfold out0_2
  rw [View.canon_unit_zero zeros4]
  simp only [View.ld_unit_zero (S := S1x32x256x64) zeros4, View.ld_unit_zero (S := S64x64) zeros2]
  obtain ⟨e0, e1, e2, e3, e4, e5, -, -, b0, b1⟩ := idx_facts t
  funext y
  obtain ⟨z, r, q, g, rfl⟩ : ∃ (z : Fin 1) (r : Fin 64) (q : Fin 512) (g : Fin 16), y = ix4 z r q g := ⟨y 0, y 1, y 2, y 3, eq_ix4 y⟩
  obtain rfl : z = 0 := Subsingleton.elim _ _
  show k0_pay1 (iblk m c 0 t) (iblk m c 1 t) (ix4 (0 : Fin 1) r q g)
    = Cert.Haar.G (V m c main_arg0) (((cfg0.win 2).blk t).view.emb (ix4 (0 : Fin 1) r q g))
  refine (pay_at (iblk m c 0 t) (iblk m c 1 t) (table_block_sel m c t) r q g).trans ?_
  have hr : r.val < 64 := r.isLt
  have hq : q.val < 512 := q.isLt
  have hg : g.val < 16 := g.isLt
  have hemb : ((cfg0.win 2).blk t).view.emb (ix4 (0 : Fin 1) r q g)
      = ix4 (⟨win0_2.index t (0 : Fin 4), by omega⟩ : Fin 8) (⟨win0_2.index t (1 : Fin 4) * 64 + r.val, by omega⟩ : Fin 512) q g := by
    funext a; apply Fin.ext
    match a with
    | ⟨0, _⟩ => show win0_2.index t (0 : Fin 4) * 1 + 1 * 0 = win0_2.index t (0 : Fin 4); omega
    | ⟨1, _⟩ => show win0_2.index t (1 : Fin 4) * 64 + 1 * r.val = win0_2.index t (1 : Fin 4) * 64 + r.val; omega
    | ⟨2, _⟩ => show win0_2.index t (2 : Fin 4) * 512 + 1 * q.val = q.val; omega
    | ⟨3, _⟩ => show win0_2.index t (3 : Fin 4) * 16 + 1 * g.val = g.val; omega
  rw [hemb, Cert.Haar.G_apply]
  unfold Cert.Haar.out
  have hb : ∀ k : Fin 4, blockBand (iblk m c 0 t) ⟨r.val / 2, by omega⟩ ⟨q.val / 2, by omega⟩ g k
      = Cert.Haar.band (V m c main_arg0) (⟨win0_2.index t (0 : Fin 4), by omega⟩ : Fin 8)
          (⟨(win0_2.index t (1 : Fin 4) * 64 + r.val) / 2, by omega⟩ : Fin 256) (⟨q.val / 2, by omega⟩ : Fin 256) g k := by
    intro k
    have hk : k.val < 4 := k.isLt
    unfold blockBand Cert.Haar.band
    show V m c main_arg0 (((cfg0.win 0).blk t).view.emb (ix4 (0 : Fin 1) (⟨r.val / 2, by omega⟩ : Fin 32) (⟨q.val / 2, by omega⟩ : Fin 256) (⟨4 * g.val + k.val, by omega⟩ : Fin 64))) = _
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 32 + 1 * (r.val / 2) = (win0_2.index t (1 : Fin 4) * 64 + r.val) / 2; omega
    | ⟨2, _⟩ => show win0_0.index t (2 : Fin 4) * 256 + 1 * (q.val / 2) = q.val / 2; omega
    | ⟨3, _⟩ => show win0_0.index t (3 : Fin 4) * 64 + 1 * (4 * g.val + k.val) = 4 * g.val + k.val; omega
  rw [hb 0, hb 1, hb 2, hb 3]
  exact cell_parity _ _ _ _ _ _ _ _ (by show r.val % 2 = (win0_2.index t (1 : Fin 4) * 64 + r.val) % 2; omega) rfl

/-! ## The blocks tile the output -/

theorem mem_blk (t : Fin cfg0.N) (i : S8x512x512x16.Idx) :
    i ∈ ((cfg0.win 2).blk t).view.set ↔ ∀ a : Fin 4, win0_2.index t a * S1x64x512x16.size a ≤ (i a).val
      ∧ (i a).val < win0_2.index t a * S1x64x512x16.size a + S1x64x512x16.size a := by
  show i ∈ ((View.whole main_v0).slice (win0_2.rect t)).set ↔ _
  rw [View.set_slice_whole, Rect.mem_set_unit]
  exact Iff.rfl

theorem cover (i : S8x512x512x16.Idx) : ∃ t : Fin cfg0.N, (cfg0.win 2).flush t = true ∧ i ∈ ((cfg0.win 2).blk t).view.set := by
  have h0 : (i 0).val < 8 := (i 0).isLt
  have h1 : (i 1).val < 512 := (i 1).isLt
  have h2 : (i 2).val < 512 := (i 2).isLt
  have h3 : (i 3).val < 16 := (i 3).isLt
  obtain ⟨t, ht⟩ := idx_onto ⟨(i 0).val, h0⟩ ⟨(i 1).val / 64, by omega⟩
  have q0 : win0_2.index t (0 : Fin 4) = (i 0).val := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 512 ≤ (i 2).val ∧ (i 2).val < win0_2.index t (2 : Fin 4) * 512 + 512; omega
  | ⟨3, _⟩ => show win0_2.index t (3 : Fin 4) * 16 ≤ (i 3).val ∧ (i 3).val < win0_2.index t (3 : Fin 4) * 16 + 16; omega

/-! ## The array after the run, and the run -/

theorem final (c : Dev nD) : (dats m 0 c).arrAt 2 cfg0.N = Cert.Haar.G (m ((c : Thread nD τ).loc main_arg0)) := by
  rw [← V_main_arg0 m c]
  exact (dats m 0 c).arrAt_eq_of_cover 2 (Cert.Haar.G (V m c main_arg0)) (fun t _ => flushed_eq m c t) cover

/-- Every weakly fair execution of the kernel program ends with the result array at `G` of the argument and the
    argument unchanged. -/
theorem run : θ_run defs (onTc (τ := τ) (main (F := Ideal))) ⟨m, fun _ => 0, ρ⟩ fun r => ∀ c : Dev nD,
      r.2.mem ((c : Thread nD τ).loc main_v0) = Cert.Haar.G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.Haar.Kern

end
-- ==== Proof.RefValue.lean ====
/-
  The reference computes `G`.

  The reference moves the channel axis to the front, splits it into 16 groups × 4 sub-bands, takes the four sub-band
  images, forms sums and differences, and interleaves them: first along the columns (a fresh trailing axis of extent two
  merged into the column axis), then along the rows (a fresh axis of extent two after the row axis, merged into it), and
  finally moves the group axis to the back. Read at an output index `(n, H, W, g)`, every layout step picks out one
  source index, and what is left is the 2×2 patch formula on the four sub-band values at pixel `(H/2, W/2)`.
-/
import proofs.«159997_j24541443129858_1_alg».proof.Proof.Gen.ReferenceIdeal.Read
import proofs.«159997_j24541443129858_1_alg».proof.Proof.Spec

noncomputable section

namespace Cert.Haar.Ref

open Cert.ReferenceIdeal Cert.ReferenceIdeal.Gen Cert.ReferenceIdeal.Read
open Idealize.ShloMosaic Idealize.ShloMosaic.ValueIdx Idealize.ShloMosaic.Pipeline

variable (x : (⟨4, ![8, 256, 256, 64]⟩ : Shape).Idx → EReal)

/-- Channels to the front: entry `(n, c, h, w)` of the transposed image is entry `(n, h, w, c)` of the image. -/
theorem v0_at (n : Fin 8) (c : Fin 64) (h w : Fin 256) :
    val_main_v0 (F := Ideal) x (ix4 n c h w) = x (ix4 n h w c) := by
  rw [val_main_v0_apply]
  exact congrArg x (funext fun a => match a with
    | ⟨0, _⟩ => rfl
    | ⟨1, _⟩ => rfl
    | ⟨2, _⟩ => rfl
    | ⟨3, _⟩ => rfl)

/-- Channel `c = 4g + k` is sub-band `k` of group `g`. -/
theorem v1_at (n : Fin 8) (g : Fin 16) (k : Fin 4) (h w : Fin 256) :
    val_main_v1 (F := Ideal) x (ix5 n g k h w) = Cert.Haar.band x n h w g k := by
  unfold val_main_v1
  refine (shapeCast_apply _ shapeCasts_S8x64x256x256_S8x16x4x256x256 (ix5 n g k h w)
    (ix4 n ⟨4 * g.val + k.val, by omega⟩ h w) ?_).trans (v0_at x n _ h w)
  rw [Shape.rowMajor_val_four, Shape.rowMajor_val_five]
  show ((n.val * 64 + (4 * g.val + k.val)) * 256 + h.val) * 256 + w.val
    = (((n.val * 16 + g.val) * 4 + k.val) * 256 + h.val) * 256 + w.val
  omega

/-- One sub-band image: the slice of extent one at position `k` of the sub-band axis, that axis then dropped. -/
theorem band_at (k : Fin 4) (hs : S8x16x4x256x256.Slices ![0, 0, k.val, 0, 0] S8x16x1x256x256)
    (n : Fin 8) (g : Fin 16) (h w : Fin 256) :
    shapeCast S8x16x256x256 (extractStridedSlice S8x16x1x256x256 ![0, 0, k.val, 0, 0] (val_main_v1 (F := Ideal) x) hs)
        shapeCasts_S8x16x1x256x256_S8x16x256x256 (ix4 n g h w) = Cert.Haar.band x n h w g k := by
  refine (shapeCast_apply _ shapeCasts_S8x16x1x256x256_S8x16x256x256 (ix4 n g h w) (ix5 n g (0 : Fin 1) h w) ?_).trans ?_
  · rw [Shape.rowMajor_val_five, Shape.rowMajor_val_four]
    show (((n.val * 16 + g.val) * 1 + 0) * 256 + h.val) * 256 + w.val = ((n.val * 16 + g.val) * 256 + h.val) * 256 + w.val
    omega
  refine (extractStridedSlice_apply _ _ hs (ix5 n g (0 : Fin 1) h w) (ix5 n g k h w) ?_).trans (v1_at x n g k h w)
  intro a
  match a with
  | ⟨0, _⟩ => show n.val = 0 + n.val; omega
  | ⟨1, _⟩ => show g.val = 0 + g.val; omega
  | ⟨2, _⟩ => show k.val = k.val + 0; omega
  | ⟨3, _⟩ => show h.val = 0 + h.val; omega
  | ⟨4, _⟩ => show w.val = 0 + w.val; omega

theorem v3_at (n : Fin 8) (g : Fin 16) (h w : Fin 256) : val_main_v3 (F := Ideal) x (ix4 n g h w) = Cert.Haar.band x n h w g 0 :=
  band_at x 0 slices_S8x16x4x256x256_S8x16x1x256x256_0_0_0_0_0 n g h w
theorem v5_at (n : Fin 8) (g : Fin 16) (h w : Fin 256) : val_main_v5 (F := Ideal) x (ix4 n g h w) = Cert.Haar.band x n h w g 1 :=
  band_at x 1 slices_S8x16x4x256x256_S8x16x1x256x256_0_0_1_0_0 n g h w
theorem v7_at (n : Fin 8) (g : Fin 16) (h w : Fin 256) : val_main_v7 (F := Ideal) x (ix4 n g h w) = Cert.Haar.band x n h w g 2 :=
  band_at x 2 slices_S8x16x4x256x256_S8x16x1x256x256_0_0_2_0_0 n g h w
theorem v9_at (n : Fin 8) (g : Fin 16) (h w : Fin 256) : val_main_v9 (F := Ideal) x (ix4 n g h w) = Cert.Haar.band x n h w g 3 :=
  band_at x 3 slices_S8x16x4x256x256_S8x16x1x256x256_0_0_3_0_0 n g h w

/-- Interleaving two `[8,16,256,256]` images along the columns: a trailing unit axis on each, joined to extent two, merged
    into the column axis. Column `W` reads the first image at `W/2` when `W` is even, the second when odd. -/
theorem weave_cols (p q : S8x16x256x256.Idx → EReal) (n : Fin 8) (g : Fin 16) (h : Fin 256) (W : Fin 512) :
    shapeCast S8x16x256x512 (concatenate S8x16x256x256x2 4
        [⟨S8x16x256x256x1, broadcastInDim S8x16x256x256x1 ![0, 1, 2, 3] bcast_S8x16x256x256_S8x16x256x256x1_0_1_2_3 p⟩,
         ⟨S8x16x256x256x1, broadcastInDim S8x16x256x256x1 ![0, 1, 2, 3] bcast_S8x16x256x256_S8x16x256x256x1_0_1_2_3 q⟩]
        concatenates_S8x16x256x256x1_S8x16x256x256x1_S8x16x256x256x2_d4) shapeCasts_S8x16x256x256x2_S8x16x256x512 (ix4 n g h W)
      = if W.val % 2 = 0 then p (ix4 n g h ⟨W.val / 2, by omega⟩) else q (ix4 n g h ⟨W.val / 2, by omega⟩) := by
  have hw : W.val / 2 < 256 := by omega
  have hb : ∀ (r : S8x16x256x256.Idx → EReal),
      broadcastInDim S8x16x256x256x1 ![0, 1, 2, 3] bcast_S8x16x256x256_S8x16x256x256x1_0_1_2_3 r (ix5 n g h ⟨W.val / 2, hw⟩ (0 : Fin 1))
        = r (ix4 n g h ⟨W.val / 2, hw⟩) := fun r =>
    broadcastInDim_apply _ bcast_S8x16x256x256_S8x16x256x256x1_0_1_2_3 r _ (ix4 n g h ⟨W.val / 2, hw⟩) (fun a => match a with
      | ⟨0, _⟩ => by show n.val = if (8 : Nat) = 1 then 0 else n.val; rw [if_neg (by decide)]
      | ⟨1, _⟩ => by show g.val = if (16 : Nat) = 1 then 0 else g.val; rw [if_neg (by decide)]
      | ⟨2, _⟩ => by show h.val = if (256 : Nat) = 1 then 0 else h.val; rw [if_neg (by decide)]
      | ⟨3, _⟩ => by show W.val / 2 = if (256 : Nat) = 1 then 0 else W.val / 2; rw [if_neg (by decide)])
  by_cases hW : W.val % 2 = 0
  · rw [if_pos hW]
    refine (shapeCast_apply _ shapeCasts_S8x16x256x256x2_S8x16x256x512 (ix4 n g h W) (ix5 n g h ⟨W.val / 2, hw⟩ (0 : Fin 2)) ?_).trans ?_
    · rw [Shape.rowMajor_val_five, Shape.rowMajor_val_four]
      show (((n.val * 16 + g.val) * 256 + h.val) * 256 + W.val / 2) * 2 + 0 = ((n.val * 16 + g.val) * 256 + h.val) * 512 + W.val
      omega
    refine (concatenate_pair_apply_left 4 _ _ concatenates_S8x16x256x256x1_S8x16x256x256x1_S8x16x256x256x2_d4 _ rfl
      (ix5 n g h ⟨W.val / 2, hw⟩ (0 : Fin 1)) ?_).trans (hb p)
    intro b
    match b with
    | ⟨0, _⟩ => rfl
    | ⟨1, _⟩ => rfl
    | ⟨2, _⟩ => rfl
    | ⟨3, _⟩ => rfl
    | ⟨4, _⟩ => rfl
  · rw [if_neg hW]
    refine (shapeCast_apply _ shapeCasts_S8x16x256x256x2_S8x16x256x512 (ix4 n g h W) (ix5 n g h ⟨W.val / 2, hw⟩ (1 : Fin 2)) ?_).trans ?_
    · rw [Shape.rowMajor_val_five, Shape.rowMajor_val_four]
      show (((n.val * 16 + g.val) * 256 + h.val) * 256 + W.val / 2) * 2 + 1 = ((n.val * 16 + g.val) * 256 + h.val) * 512 + W.val
      omega
    refine (concatenate_pair_apply_right 4 _ _ concatenates_S8x16x256x256x1_S8x16x256x256x1_S8x16x256x256x2_d4 _ rfl rfl
      (ix5 n g h ⟨W.val / 2, hw⟩ (0 : Fin 1)) ?_ rfl).trans (hb q)
    intro b
    match b with
    | ⟨0, _⟩ => exact fun _ => rfl
    | ⟨1, _⟩ => exact fun _ => rfl
    | ⟨2, _⟩ => exact fun _ => rfl
    | ⟨3, _⟩ => exact fun _ => rfl
    | ⟨4, _⟩ => exact fun hne => absurd rfl hne

/-- Interleaving two `[8,16,256,512]` images along the rows: a unit axis after the row axis on each, joined to extent
    two, merged into the row axis. Row `H` reads the first image at `H/2` when `H` is even, the second when odd. -/
theorem weave_rows (p q : S8x16x256x512.Idx → EReal) (n : Fin 8) (g : Fin 16) (H W : Fin 512) :
    shapeCast S8x16x512x512 (concatenate S8x16x256x2x512 3
        [⟨S8x16x256x1x512, broadcastInDim S8x16x256x1x512 ![0, 1, 2, 4] bcast_S8x16x256x512_S8x16x256x1x512_0_1_2_4 p⟩,
         ⟨S8x16x256x1x512, broadcastInDim S8x16x256x1x512 ![0, 1, 2, 4] bcast_S8x16x256x512_S8x16x256x1x512_0_1_2_4 q⟩]
        concatenates_S8x16x256x1x512_S8x16x256x1x512_S8x16x256x2x512_d3) shapeCasts_S8x16x256x2x512_S8x16x512x512 (ix4 n g H W)
      = if H.val % 2 = 0 then p (ix4 n g ⟨H.val / 2, by omega⟩ W) else q (ix4 n g ⟨H.val / 2, by omega⟩ W) := by
  have hh : H.val / 2 < 256 := by omega
  have hb : ∀ (r : S8x16x256x512.Idx → EReal),
      broadcastInDim S8x16x256x1x512 ![0, 1, 2, 4] bcast_S8x16x256x512_S8x16x256x1x512_0_1_2_4 r (ix5 n g ⟨H.val / 2, hh⟩ (0 : Fin 1) W)
        = r (ix4 n g ⟨H.val / 2, hh⟩ W) := fun r =>
    broadcastInDim_apply _ bcast_S8x16x256x512_S8x16x256x1x512_0_1_2_4 r _ (ix4 n g ⟨H.val / 2, hh⟩ W) (fun a => match a with
      | ⟨0, _⟩ => by show n.val = if (8 : Nat) = 1 then 0 else n.val; rw [if_neg (by decide)]
      | ⟨1, _⟩ => by show g.val = if (16 : Nat) = 1 then 0 else g.val; rw [if_neg (by decide)]
      | ⟨2, _⟩ => by show H.val / 2 = if (256 : Nat) = 1 then 0 else H.val / 2; rw [if_neg (by decide)]
      | ⟨3, _⟩ => by show W.val = if (512 : Nat) = 1 then 0 else W.val; rw [if_neg (by decide)])
  by_cases hH : H.val % 2 = 0
  · rw [if_pos hH]
    refine (shapeCast_apply _ shapeCasts_S8x16x256x2x512_S8x16x512x512 (ix4 n g H W) (ix5 n g ⟨H.val / 2, hh⟩ (0 : Fin 2) W) ?_).trans ?_
    · rw [Shape.rowMajor_val_five, Shape.rowMajor_val_four]
      show (((n.val * 16 + g.val) * 256 + H.val / 2) * 2 + 0) * 512 + W.val = ((n.val * 16 + g.val) * 512 + H.val) * 512 + W.val
      omega
    refine (concatenate_pair_apply_left 3 _ _ concatenates_S8x16x256x1x512_S8x16x256x1x512_S8x16x256x2x512_d3 _ rfl
      (ix5 n g ⟨H.val / 2, hh⟩ (0 : Fin 1) W) ?_).trans (hb p)
    intro b
    match b with
    | ⟨0, _⟩ => rfl
    | ⟨1, _⟩ => rfl
    | ⟨2, _⟩ => rfl
    | ⟨3, _⟩ => rfl
    | ⟨4, _⟩ => rfl
  · rw [if_neg hH]
    refine (shapeCast_apply _ shapeCasts_S8x16x256x2x512_S8x16x512x512 (ix4 n g H W) (ix5 n g ⟨H.val / 2, hh⟩ (1 : Fin 2) W) ?_).trans ?_
    · rw [Shape.rowMajor_val_five, Shape.rowMajor_val_four]
      show (((n.val * 16 + g.val) * 256 + H.val / 2) * 2 + 1) * 512 + W.val = ((n.val * 16 + g.val) * 512 + H.val) * 512 + W.val
      omega
    refine (concatenate_pair_apply_right 3 _ _ concatenates_S8x16x256x1x512_S8x16x256x1x512_S8x16x256x2x512_d3 _ rfl rfl
      (ix5 n g ⟨H.val / 2, hh⟩ (0 : Fin 1) W) ?_ rfl).trans (hb q)
    intro b
    match b with
    | ⟨0, _⟩ => exact fun _ => rfl
    | ⟨1, _⟩ => exact fun _ => rfl
    | ⟨2, _⟩ => exact fun _ => rfl
    | ⟨3, _⟩ => exact fun hne => absurd rfl hne
    | ⟨4, _⟩ => exact fun _ => rfl

/-- The low pair `a, b` interleaved along the columns. -/
theorem v15_at (n : Fin 8) (g : Fin 16) (h : Fin 256) (W : Fin 512) :
    val_main_v15 (F := Ideal) x (ix4 n g h W)
      = if W.val % 2 = 0 then Cert.Haar.band x n h ⟨W.val / 2, by omega⟩ g 0 + Cert.Haar.band x n h ⟨W.val / 2, by omega⟩ g 1
        else Cert.Haar.band x n h ⟨W.val / 2, by omega⟩ g 0 - Cert.Haar.band x n h ⟨W.val / 2, by omega⟩ g 1 := by
  unfold val_main_v15 val_main_v14 val_main_v12 val_main_v13
  rw [weave_cols]
  unfold val_main_v10 val_main_v11
  rw [addf_apply, subf_apply, v3_at, v5_at]

/-- The high pair `c, d` interleaved along the columns. -/
theorem v21_at (n : Fin 8) (g : Fin 16) (h : Fin 256) (W : Fin 512) :
    val_main_v21 (F := Ideal) x (ix4 n g h W)
      = if W.val % 2 = 0 then Cert.Haar.band x n h ⟨W.val / 2, by omega⟩ g 2 + Cert.Haar.band x n h ⟨W.val / 2, by omega⟩ g 3
        else Cert.Haar.band x n h ⟨W.val / 2, by omega⟩ g 2 - Cert.Haar.band x n h ⟨W.val / 2, by omega⟩ g 3 := by
  unfold val_main_v21 val_main_v20 val_main_v18 val_main_v19
  rw [weave_cols]
  unfold val_main_v16 val_main_v17
  rw [addf_apply, subf_apply, v7_at, v9_at]

/-- Sum and difference of the two column-interleaved images, interleaved along the rows. -/
theorem v27_at (n : Fin 8) (g : Fin 16) (H W : Fin 512) :
    val_main_v27 (F := Ideal) x (ix4 n g H W) = Cert.Haar.out x n H W g := by
  unfold val_main_v27 val_main_v26 val_main_v24 val_main_v25
  rw [weave_rows]
  unfold val_main_v22 val_main_v23
  rw [addf_apply, subf_apply, v15_at, v21_at]
  unfold Cert.Haar.out Cert.Haar.cell
  split_ifs <;> rfl

/-- The reference's result is `G` of its argument. -/
theorem ref_eq_G : val_main_v28 (F := Ideal) x = Cert.Haar.G x := by
  funext j
  obtain ⟨n, H, W, g, rfl⟩ : ∃ (n : Fin 8) (H W : Fin 512) (g : Fin 16), j = ix4 n H W g := ⟨j 0, j 1, j 2, j 3, eq_ix4 j⟩
  rw [val_main_v28_apply, Cert.Haar.G_apply]
  refine Eq.trans (congrArg (val_main_v27 (F := Ideal) x) ?_) (v27_at x n g H W)
  exact funext fun a => match a with
    | ⟨0, _⟩ => rfl
    | ⟨1, _⟩ => rfl
    | ⟨2, _⟩ => rfl
    | ⟨3, _⟩ => rfl

end Cert.Haar.Ref

end
-- ==== Proof.lean ====
/-
  One step of the inverse Haar wavelet transform, as a Pallas kernel and as plain array code.

  The input image `[8, 256, 256, 64]` carries, in its 64 channels, 16 groups of four sub-bands `a, b, c, d`. Both programs
  turn the four values at a pixel into the 2×2 output patch

      (a + b) + (c + d)    (a − b) + (c − d)
      (a + b) − (c + d)    (a − b) − (c − d)

  and lay the patches out as an image of twice the height and width with one channel per group (`Cert.Haar.G`, Proof/Spec.lean).

  The reference does it with transposes, reshapes and slices (Proof/RefValue.lean). The kernel regroups the channels by
  multiplying each pixel's channel vector with a constant `64 × 64` selection matrix, takes the four lane blocks, and
  interleaves the sums and differences by concatenating along a fresh axis and merging it (Proof/Interleave.lean,
  Proof/KernelPayload.lean, Proof/KernelCell.lean, Proof/KernelFinal.lean). Over the extended reals a product with zero is
  zero whatever the other factor, so the selection picks out exactly one channel and both programs apply the same
  additions and subtractions to the same four entries: they agree entry by entry, and no use is made of the inputs
  being finite.
-/
import proofs.«159997_j24541443129858_1_alg».proof.Defs
import proofs.«159997_j24541443129858_1_alg».proof.Proof.Gen.Kernel
import proofs.«159997_j24541443129858_1_alg».proof.Proof.Gen.Kernel.Skeleton
import proofs.«159997_j24541443129858_1_alg».proof.Proof.Gen.Kernel.Launch
import proofs.«159997_j24541443129858_1_alg».proof.Proof.Gen.Kernel.Points
import proofs.«159997_j24541443129858_1_alg».proof.Proof.Gen.Kernel.Frame
import proofs.«159997_j24541443129858_1_alg».proof.Proof.Gen.KernelIdeal
import proofs.«159997_j24541443129858_1_alg».proof.Proof.Gen.KernelIdeal.Skeleton
import proofs.«159997_j24541443129858_1_alg».proof.Proof.Gen.KernelIdeal.Launch
import proofs.«159997_j24541443129858_1_alg».proof.Proof.Gen.KernelIdeal.Points
import proofs.«159997_j24541443129858_1_alg».proof.Proof.Gen.KernelIdeal.Frame
import proofs.«159997_j24541443129858_1_alg».proof.Proof.Gen.ReferenceIdeal
import proofs.«159997_j24541443129858_1_alg».proof.Proof.Gen.Pre_finite_inputs
import proofs.«159997_j24541443129858_1_alg».proof.Proof.Gen.KernelIdeal.Value
import proofs.«159997_j24541443129858_1_alg».proof.Proof.Gen.ReferenceIdeal.Run
import proofs.«159997_j24541443129858_1_alg».proof.Proof.Gen.ReferenceIdeal.Read
import proofs.«159997_j24541443129858_1_alg».proof.Proof.KernelFinal
import proofs.«159997_j24541443129858_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end and leaves its argument alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is straight-line array code: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at `G` of the common argument. -/
theorem algebraic : Cert.algebraic_KernelIdeal_ReferenceIdeal := by
  intro m ρ m' ρ' _ hagree
  refine ⟨fun c => Cert.Haar.G (m ((c.tc : Thread Cert.KernelIdeal.nD Cert.KernelIdeal.τ).loc Cert.KernelIdeal.main_arg0)),
    Cert.Haar.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.Haar.Ref.ref_eq_G, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
